-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x512 : Shape := ⟨2, ![2048, 512]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S2048x2048 .f32) (main_arg3 : FVec F S2048x512 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Kernel.lean ====
abbrev S4096x2048 : Shape := ⟨2, ![4096, 2048]⟩
abbrev S2048x2048 : Shape := ⟨2, ![2048, 2048]⟩
abbrev S2048x512 : Shape := ⟨2, ![2048, 512]⟩
abbrev S2048 : Shape := ⟨1, ![2048]⟩
abbrev S_ : Shape := ⟨0, ![]⟩
abbrev S2048x1 : Shape := ⟨2, ![2048, 1]⟩
abbrev S2048x2560 : Shape := ⟨2, ![2048, 2560]⟩
abbrev S1x2048 : Shape := ⟨2, ![1, 2048]⟩
abbrev S4096x512 : Shape := ⟨2, ![4096, 512]⟩
abbrev S256x2048 : Shape := ⟨2, ![256, 2048]⟩
abbrev S256x512 : Shape := ⟨2, ![256, 512]⟩
abbrev S256x2560 : Shape := ⟨2, ![256, 2560]⟩

abbrev nBuf : Space → Nat
  | .hbm => 37
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x512, .f32⟩
  | .hbm, ⟨4, _⟩ => ⟨S2048, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S2048x2048, .f32⟩
  | .hbm, ⟨19, _⟩ => ⟨S_, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .bf16⟩
  | .hbm, ⟨27, _⟩ => ⟨S2048x1, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .bf16⟩
  | .hbm, ⟨32, _⟩ => ⟨S2048x2560, .bf16⟩
  | .hbm, ⟨33, _⟩ => ⟨S1x2048, .f32⟩
  | .hbm, ⟨34, _⟩ => ⟨S4096x512, .f32⟩
  | .hbm, ⟨35, _⟩ => ⟨S4096x2048, .f32⟩
  | .hbm, ⟨36, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x2560, .bf16⟩
  | .local _ .vmem, ⟨6, _⟩ => ⟨S256x512, .f32⟩
  | .local _ .vmem, ⟨7, _⟩ => ⟨S256x512, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_cst_0 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_cst_1 : Ref sig .tc := ⟨.hbm, 19, rfl⟩
abbrev main_call0_call1_v0 : Ref sig .tc := ⟨.hbm, 20, rfl⟩
abbrev main_call0_call1_v1 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048 : S_.BroadcastsInDim S2048 (![] : Fin 0 → Fin S2048.rank)
  bcast_S_S2048x2048 : S_.BroadcastsInDim S2048x2048 (![] : Fin 0 → Fin S2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bitsLt_bf16_f32 : FTy.bits .bf16 < FTy.bits .f32
  bcast_S2048x1_S2048x512_0_1 : S2048x1.BroadcastsInDim S2048x512 (![0, 1] : Fin 2 → Fin S2048x512.rank)
  concatenates_S2048x512_S2048x2048_S2048x2560_d1 : Shape.Concatenates [S2048x512, S2048x2048] S2048x2560 1
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2560_S2048x2560_0_0 : ∀ a, (![0, 0] : Fin 2 → Nat) a + S2048x2560.size a ≤ S2048x2560.size a
  h_S2048x2560 : 0 < S2048x2560.numel
  shapeCasts_S2048x2560_S2048x2560 : S2048x2560.ShapeCasts S2048x2560
  slices_S256x2560_o0_0_S256x512 : S256x2560.Slices ![0, 0] S256x512
  inb_S256x512_S256x512_0_0 : ∀ a, (![0, 0] : Fin 2 → Nat) a + S256x512.size a ≤ S256x512.size a
  h_S256x512 : 0 < S256x512.numel
  slices_S256x2560_o0_512_S256x2048 : S256x2560.Slices ![0, 512] S256x2048
  dot_S256x2048_S2048x2560_S256x2560_1_0_0_1_n_n_wf : DotDims.WF S256x2048 S2048x2560 S256x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2560.size a ≤ S2048x2560.size a
  hwx0_3 : ∀ i : grid0.Coords, EltTy.bits .bf16 = 32 ∨ (Rect.block (s := S2048x2560) S2048x2560.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x512.size a
  hwx0_4 : ∀ i : grid0.Coords, EltTy.bits .f32 = 32 ∨ (Rect.block (s := S4096x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)

variable [Facts₀]

def dot_S256x2048_S2048x2560_S256x2560_1_0_0_1_n_n : DotDims S256x2048 S2048x2560 S256x2560 where
  lhsContracting := [1]
  rhsContracting := [0]
  lhsNonContracting := [0]
  rhsNonContracting := [1]
  lhsBatch := []
  rhsBatch := []
  wf := dot_S256x2048_S2048x2560_S256x2560_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S2048x2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x512 : Shape := ⟨2, ![2048, 512]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S4096x512 : Shape := ⟨2, ![4096, 512]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048x512, .f32⟩
  | .hbm, ⟨4, _⟩ => ⟨S2048, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x1, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S4096x512, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S_S2048x2048 : S_.BroadcastsInDim S2048x2048 (![] : Fin 0 → Fin S2048x2048.rank)
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048x1_S2048x512_0_1 : S2048x1.BroadcastsInDim S2048x512 (![0, 1] : Fin 2 → Fin S2048x512.rank)
  dot_S4096x2048_S2048x512_S4096x512_1_0_0_1_n_n_wf : DotDims.WF S4096x2048 S2048x512 S4096x512 [1] [0] [0] [1] [] []
  dot_S4096x2048_S2048x2048_S4096x2048_1_0_0_1_n_n_wf : DotDims.WF S4096x2048 S2048x2048 S4096x2048 [1] [0] [0] [1] [] []

variable [Facts₀]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The mathematics both programs compute, written once over the extended reals, and the one scalar law
  that joins the two ways the recurrent weights are masked.

  With `c₉ = f32(0.9)`, `c₁ = f32(0.1)` (the same two words on both sides, never evaluated) and a sign
  vector `σ` (one entry per neuron), the leaky-integrator step is

      u[p, q] = max (c₉ · x[p, q] + c₁ · (i[p, q] + b[q])) 0,

  the effective weights are `Wf[k, j] = σ[k] · |f[k, j]|` and `Wr[k, j] = σ[k] · (0 if k = j else |r[k, j]|)`,
  and the two products are `(u · Wf)[p, j] = ∑ₖ u[p, k] · Wf[k, j]`, `(u · Wr)[p, j] = ∑ₖ u[p, k] · Wr[k, j]`.
  The kernel masks the diagonal by a selection on the bit `δ = (row = column)`; the reference multiplies by
  `1 - δ` (as a float) before taking the absolute value. For a bit these agree on every extended real:
  `|r · (1 - 1)| = |r · 0| = 0` and `|r · (1 - 0)| = |r · 1| = |r|`.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx

/-- Batch × neurons, neurons × neurons, neurons × readout, neurons, batch × readout. -/
abbrev SBN : Shape := ⟨2, ![4096, 2048]⟩
abbrev SNN : Shape := ⟨2, ![2048, 2048]⟩
abbrev SNO : Shape := ⟨2, ![2048, 512]⟩
abbrev SN : Shape := ⟨1, ![2048]⟩
abbrev SBO : Shape := ⟨2, ![4096, 512]⟩

/-- The leak factor `f32(0.9)`, the input gain `f32(0.1)` and the rectifier's floor, as the words both programs print. -/
abbrev c9 : EReal := Ideal.ofBits .f32 0x3F666666#32
abbrev c1 : EReal := Ideal.ofBits .f32 0x3DCCCCCD#32
abbrev c0 : EReal := Ideal.ofBits .f32 0x00000000#32

/-- The rectified leaky-integrator state: `u[p, q] = max (c₉ · x[p, q] + c₁ · (i[p, q] + b[q])) 0`. -/
def act (i_ x : SBN.Idx → EReal) (b : SN.Idx → EReal) : SBN.Idx → EReal :=
  fun j => max (c9 * x j + c1 * (i_ j + b (ix1 (j 1)))) c0

/-- The readout weights under the sign law: `σ[k] · |f[k, j]|`. -/
def wf (σ : SN.Idx → EReal) (f : SNO.Idx → EReal) : SNO.Idx → EReal :=
  fun j => σ (ix1 (j 0)) * max (f j) (-(f j))

/-- The recurrent weights under the sign law with the diagonal removed by the bit `δ`:
    `σ[k] · (0 if δ[k, j] else |r[k, j]|)`. -/
def wr (σ : SN.Idx → EReal) (δ : SNN.Idx → BitVec 1) (r : SNN.Idx → EReal) : SNN.Idx → EReal :=
  fun j => σ (ix1 (j 0)) * Scalar.select (δ j) (0 : EReal) (max (r j) (-(r j)))

/-- The readout product `(u · W)[p, j] = ∑ₖ u[p, k] · W[k, j]`. -/
def outF (u : SBN.Idx → EReal) (w : SNO.Idx → EReal) : SBO.Idx → EReal :=
  fun j => ∑ k : Fin 2048, u (ix2 (j 0) k) * w (ix2 k (j 1))

/-- The recurrent product `(u · W)[p, j] = ∑ₖ u[p, k] · W[k, j]`. -/
def outR (u : SBN.Idx → EReal) (w : SNN.Idx → EReal) : SBN.Idx → EReal :=
  fun j => ∑ k : Fin 2048, u (ix2 (j 0) k) * w (ix2 k (j 1))

/-- A bit as an unsigned integer, then as a real, is `1` or `0`; so `|r · (1 - δ)|` is `0` where the bit is set
    and `|r|` where it is clear, on every extended real `r` (`r · 0 = 0` also at the infinities). -/
theorem abs_mul_one_sub_bit (δ : BitVec 1) (r : EReal) :
    max (r * ((1 : EReal) - ((δ.toNat : ℝ) : EReal))) (-(r * ((1 : EReal) - ((δ.toNat : ℝ) : EReal))))
      = Scalar.select δ (0 : EReal) (max r (-r)) := by
  by_cases h : δ = 1#1
  · subst h
    rw [select_one]
    have e : ((1 : EReal) - (((1#1 : BitVec 1).toNat : ℝ) : EReal)) = 0 := by
      have e1 : (((1#1 : BitVec 1).toNat : ℝ) : EReal) = ((1 : ℝ) : EReal) := by norm_num
      rw [e1, ← EReal.coe_one, ← EReal.coe_sub, sub_self, EReal.coe_zero]
    rw [e, mul_zero, neg_zero, max_self]
  · have h0 := eq_zero_of_ne_one h
    subst h0
    rw [select_zero]
    have e : ((1 : EReal) - (((0#1 : BitVec 1).toNat : ℝ) : EReal)) = 1 := by
      norm_num
    rw [e, mul_one]

end Cert.Spec

end
-- ==== Proof.RefIsSpec.lean ====
/-
  The reference, stage by stage, is the specification: its rectified state is `act`, its readout weights are
  `wf`, its recurrent weights — the absolute value of `r · (1 - δ)` with `δ` the diagonal bit as a float — are
  `wr` by the one scalar law of the specification, and each of its two products is the plain sum over the
  contracted axis.
-/
import proofs.«413386_j20117626814651_3_alg».proof.Proof.Gen.ReferenceIdeal.Read
import proofs.«413386_j20117626814651_3_alg».proof.Proof.Spec

noncomputable section

namespace Cert.ReferenceIdeal.RefValue

open Cert.ReferenceIdeal Cert.ReferenceIdeal.Read Idealize.ShloMosaic Idealize.ShloMosaic.ValueIdx Cert.Spec

/-- The sign vector as the reference computes it: `+1` on the first 1638 neurons, `-1` on the rest (never evaluated:
    the kernel computes the same term). -/
abbrev sgn : SN.Idx → EReal := val_main_v4 (F := Ideal)

/-- The diagonal bit: row index equals column index, as 32-bit words. -/
abbrev diag : SNN.Idx → BitVec 1 := cmpi .eq (iotaInDim S2048x2048 32 0) (iotaInDim S2048x2048 32 1)

/-- The reference adds a zero word to the row index before comparing: the same bit. -/
theorem bit_eq (j : S2048x2048.Idx) : val_main_v9 (F := Ideal) j = diag j := by
  rw [val_main_v9_apply, val_main_v8_apply, val_main_v7_apply, val_main_c_1_apply]
  show IntOp.cmpi .eq (IntOp.addi (val_main_v5 (F := Ideal) j) 0#32) (val_main_v6 (F := Ideal) j) = _
  unfold IntOp.addi
  rw [BitVec.add_zero]
  rfl

/-- The rectified state. -/
theorem state_eq (x0 x1 : SBN.Idx → EReal) (x4 : SN.Idx → EReal) :
    val_main_v21 (F := Ideal) x0 x1 x4 = act x0 x1 x4 := by
  funext j
  have e : idx_main_v15 (idx_main_v16 j) = ix1 (j 1) := funext fun a => Fin.ext (by match a with | ⟨0, _⟩ => rfl)
  simp only [val_main_v21_apply, val_main_v20_apply, val_main_v14_apply, val_main_v13_apply, val_main_cst_3_apply,
    val_main_v19_apply, val_main_v18_apply, val_main_cst_4_apply, val_main_v17_apply, val_main_v16_apply,
    val_main_v15_apply, val_main_call1_v0_apply, val_main_call1_cst_apply, e]
  rfl

/-- The readout weights. -/
theorem wf_eq (x3 : SNO.Idx → EReal) : val_main_v30 (F := Ideal) x3 = wf sgn x3 := by
  funext j
  have e : idx_main_v27 (idx_main_v29 j) = ix1 (j 0) := funext fun a => Fin.ext (by match a with | ⟨0, _⟩ => rfl)
  simp only [val_main_v30_apply, val_main_v29_apply, val_main_v27_apply, val_main_v28_apply, e]
  rfl

/-- The recurrent weights: `|r · (1 - δ)|` is `0` on the diagonal and `|r|` off it. -/
theorem wr_eq (x2 : SNN.Idx → EReal) : val_main_v26 (F := Ideal) x2 = wr sgn diag x2 := by
  funext j
  have e : idx_main_v22 (idx_main_v25 j) = ix1 (j 0) := funext fun a => Fin.ext (by match a with | ⟨0, _⟩ => rfl)
  simp only [val_main_v26_apply, val_main_v25_apply, val_main_v22_apply, val_main_v24_apply, val_main_v23_apply,
    val_main_v12_apply, val_main_v11_apply, val_main_cst_2_apply, val_main_v10_apply, e, bit_eq]
  show sgn (ix1 (j 0)) * max (x2 j * (Ideal.ofBits .f32 0x3F800000#32 - (((diag j).toNat : ℝ) : EReal)))
      (-(x2 j * (Ideal.ofBits .f32 0x3F800000#32 - (((diag j).toNat : ℝ) : EReal)))) = _
  rw [Ideal.ofBits_one_f32, abs_mul_one_sub_bit]
  rfl

/-- The readout product. -/
theorem outF_eq (x0 x1 : SBN.Idx → EReal) (x3 : SNO.Idx → EReal) (x4 : SN.Idx → EReal) :
    val_main_v31 (F := Ideal) x0 x1 x3 x4 = outF (act x0 x1 x4) (wf sgn x3) := by
  funext j
  rw [val_main_v31_apply, state_eq, wf_eq]
  refine Finset.sum_congr rfl fun k _ => ?_
  have el : lidx_main_v31 j k = ix2 (j 0) k := funext fun a => Fin.ext (by match a with | ⟨0, _⟩ => rfl | ⟨1, _⟩ => rfl)
  have er : ridx_main_v31 j k = ix2 k (j 1) := funext fun a => Fin.ext (by match a with | ⟨0, _⟩ => rfl | ⟨1, _⟩ => rfl)
  rw [el, er]
  rfl

/-- The recurrent product. -/
theorem outR_eq (x0 x1 : SBN.Idx → EReal) (x2 : SNN.Idx → EReal) (x4 : SN.Idx → EReal) :
    val_main_v32 (F := Ideal) x0 x1 x2 x4 = outR (act x0 x1 x4) (wr sgn diag x2) := by
  funext j
  rw [val_main_v32_apply, state_eq, wr_eq]
  refine Finset.sum_congr rfl fun k _ => ?_
  have el : lidx_main_v32 j k = ix2 (j 0) k := funext fun a => Fin.ext (by match a with | ⟨0, _⟩ => rfl | ⟨1, _⟩ => rfl)
  have er : ridx_main_v32 j k = ix2 k (j 1) := funext fun a => Fin.ext (by match a with | ⟨0, _⟩ => rfl | ⟨1, _⟩ => rfl)
  rw [el, er]
  rfl

end Cert.ReferenceIdeal.RefValue

end
-- ==== Proof.Body.lean ====
/-
  The kernel body's arithmetic at an element, over arbitrary blocks: the state block is the rectified
  leaky-integrator step of the `x` block, the input block and the bias row; the one matrix product into a zero
  accumulator is the plain sum over the 2048 neurons of state × weight; the two stored results are its first 512
  columns and its remaining 2048 columns.
-/
import proofs.«413386_j20117626814651_3_alg».proof.Proof.Gen.KernelIdeal.Value
import proofs.«413386_j20117626814651_3_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Spec

/-- The state block at row `p`, neuron `q`: `max (c₉ · x + c₁ · (i + b[q])) 0`; the bias row is broadcast down the rows. -/
theorem state_apply (xb ib : Vec Ideal S256x2048 .f32) (bb : Vec Ideal S1x2048 .f32) (p : Fin 256) (q : Fin 2048) :
    k0_pay1 (F := Ideal) xb ib bb (ix2 p q)
      = max (c9 * xb (ix2 p q) + c1 * (ib (ix2 p q) + bb (ix2 (0 : Fin 1) q))) c0 := by
  have eb : broadcastTo S256x2048 (shapeCast S1x2048 bb shapeCasts_S1x2048_S1x2048) broadcasts_S1x2048_S256x2048 (ix2 p q)
      = bb (ix2 (0 : Fin 1) q) := by
    rw [shapeCast_self]
    exact broadcastTo_apply _ _ (ix2 p q) (ix2 (0 : Fin 1) q) (fun a => match a with
      | ⟨0, _⟩ => by show 0 = (if (1 : Nat) = 1 then 0 else p.val); rw [if_pos rfl]
      | ⟨1, _⟩ => by show q.val = (if (2048 : Nat) = 1 then 0 else q.val); rw [if_neg (by decide)])
  show max (c9 * xb (ix2 p q) + c1 * (ib (ix2 p q)
      + broadcastTo S256x2048 (shapeCast S1x2048 bb shapeCasts_S1x2048_S1x2048) broadcasts_S1x2048_S256x2048 (ix2 p q))) c0 = _
  rw [eb]

theorem lhs_0 (i : S256x2560.Idx) (q : dot_S256x2048_S2048x2560_S256x2560_1_0_0_1_n_n.contr.Idx) :
    (dot_S256x2048_S2048x2560_S256x2560_1_0_0_1_n_n.lhsIdx i q 0).val = (i 0).val := by
  unfold DotDims.lhsIdx
  rw [dif_neg (show ¬(0 : Fin S256x2048.rank) ∈ dot_S256x2048_S2048x2560_S256x2560_1_0_0_1_n_n.lhsBatch by decide), dif_pos (show (0 : Fin S256x2048.rank) ∈ dot_S256x2048_S2048x2560_S256x2560_1_0_0_1_n_n.lhsNonContracting by decide)]
  rfl
theorem lhs_1 (i : S256x2560.Idx) (q : dot_S256x2048_S2048x2560_S256x2560_1_0_0_1_n_n.contr.Idx) :
    (dot_S256x2048_S2048x2560_S256x2560_1_0_0_1_n_n.lhsIdx i q 1).val = (q ⟨0, by decide⟩).val :=
  dot_S256x2048_S2048x2560_S256x2560_1_0_0_1_n_n.lhsIdx_val_of_single rfl i q
theorem rhs_0 (i : S256x2560.Idx) (q : dot_S256x2048_S2048x2560_S256x2560_1_0_0_1_n_n.contr.Idx) :
    (dot_S256x2048_S2048x2560_S256x2560_1_0_0_1_n_n.rhsIdx i q 0).val = (q ⟨0, by decide⟩).val :=
  dot_S256x2048_S2048x2560_S256x2560_1_0_0_1_n_n.rhsIdx_val_of_single rfl i q
theorem rhs_1 (i : S256x2560.Idx) (q : dot_S256x2048_S2048x2560_S256x2560_1_0_0_1_n_n.contr.Idx) :
    (dot_S256x2048_S2048x2560_S256x2560_1_0_0_1_n_n.rhsIdx i q 1).val = (i 1).val := by
  unfold DotDims.rhsIdx
  rw [dif_neg (show ¬(1 : Fin S2048x2560.rank) ∈ dot_S256x2048_S2048x2560_S256x2560_1_0_0_1_n_n.rhsBatch by decide), dif_pos (show (1 : Fin S2048x2560.rank) ∈ dot_S256x2048_S2048x2560_S256x2560_1_0_0_1_n_n.rhsNonContracting by decide)]
  rfl

/-- The product block at row `p`, column `j`: the sum over the neurons `k` of state[p, k] × weight[k, j] (the accumulator
    is the zero splat; the change of float format of the state is the identity over the extended reals). -/
theorem prod_apply (xb ib : Vec Ideal S256x2048 .f32) (bb : Vec Ideal S1x2048 .f32) (wb : Vec Ideal S2048x2560 .bf16)
    (p : Fin 256) (j : Fin 2560) :
    k0_pay2 (F := Ideal) xb ib bb wb (ix2 p j)
      = ∑ k : Fin 2048, k0_pay1 (F := Ideal) xb ib bb (ix2 p k) * wb (ix2 k j) := by
  unfold k0_pay2
  generalize k0_pay1 (F := Ideal) xb ib bb = y0
  show matmul dot_S256x2048_S2048x2560_S256x2560_1_0_0_1_n_n none (truncf .bf16 y0 bitsLt_bf16_f32) (shapeCast S2048x2560 wb shapeCasts_S2048x2560_S2048x2560)
      (constant S256x2560 .f32 0x00000000#32) (ix2 p j) = _
  simp only [matmul]
  rw [Ideal.matmul_constant_zero_apply, ← Equiv.sum_comp (ValueIdx.contrEquiv1 dot_S256x2048_S2048x2560_S256x2560_1_0_0_1_n_n 2048 rfl rfl).symm]
  refine Finset.sum_congr rfl fun k _ => ?_
  have hk := ValueIdx.contrEquiv1_symm_val dot_S256x2048_S2048x2560_S256x2560_1_0_0_1_n_n 2048 rfl rfl k
  have el : dot_S256x2048_S2048x2560_S256x2560_1_0_0_1_n_n.lhsIdx (ix2 p j) ((ValueIdx.contrEquiv1 dot_S256x2048_S2048x2560_S256x2560_1_0_0_1_n_n 2048 rfl rfl).symm k) = ix2 p k := funext fun a => Fin.ext (by
    match a with
    | ⟨0, _⟩ => exact lhs_0 _ _
    | ⟨1, _⟩ => exact (lhs_1 _ _).trans hk)
  have er : dot_S256x2048_S2048x2560_S256x2560_1_0_0_1_n_n.rhsIdx (ix2 p j) ((ValueIdx.contrEquiv1 dot_S256x2048_S2048x2560_S256x2560_1_0_0_1_n_n 2048 rfl rfl).symm k) = ix2 k j := funext fun a => Fin.ext (by
    match a with
    | ⟨0, _⟩ => exact (rhs_0 _ _).trans hk
    | ⟨1, _⟩ => exact rhs_1 _ _)
  rw [el, er, shapeCast_self]
  rfl

/-- The readout block is the product's first 512 columns. -/
theorem readout_apply (xb ib : Vec Ideal S256x2048 .f32) (bb : Vec Ideal S1x2048 .f32) (wb : Vec Ideal S2048x2560 .bf16)
    (p : Fin 256) (q : Fin 512) :
    k0_pay3 (F := Ideal) xb ib bb wb (ix2 p q)
      = ∑ k : Fin 2048, k0_pay1 (F := Ideal) xb ib bb (ix2 p k) * wb (ix2 k (⟨q.val, by omega⟩ : Fin 2560)) := by
  rw [← prod_apply]
  unfold k0_pay3
  exact extractStridedSlice_apply ![0, 0] _ _ (ix2 p q) (ix2 p (⟨q.val, by omega⟩ : Fin 2560)) (fun a => match a with
    | ⟨0, _⟩ => by show p.val = 0 + p.val; omega
    | ⟨1, _⟩ => by show q.val = 0 + q.val; omega)

/-- The recurrent block is the product's columns 512 to 2559. -/
theorem recur_apply (xb ib : Vec Ideal S256x2048 .f32) (bb : Vec Ideal S1x2048 .f32) (wb : Vec Ideal S2048x2560 .bf16)
    (p : Fin 256) (q : Fin 2048) :
    k0_pay4 (F := Ideal) xb ib bb wb (ix2 p q)
      = ∑ k : Fin 2048, k0_pay1 (F := Ideal) xb ib bb (ix2 p k) * wb (ix2 k (⟨q.val + 512, by omega⟩ : Fin 2560)) := by
  rw [← prod_apply]
  unfold k0_pay4
  exact extractStridedSlice_apply ![0, 512] _ _ (ix2 p q) (ix2 p (⟨q.val + 512, by omega⟩ : Fin 2560)) (fun a => match a with
    | ⟨0, _⟩ => by show p.val = 0 + p.val; omega
    | ⟨1, _⟩ => by show q.val + 512 = 512 + q.val; omega)

end Cert.KernelIdeal.Body

end
-- ==== Proof.HostW.lean ====
/-
  What the host code before the launch leaves in the two arrays the kernel's resident windows stage: the bias as one
  row, and the concatenation `[σ · |f|  |  σ · (0 on the diagonal, else |r|)]` of the readout and recurrent weights along
  the columns; and both read at an element. The changes of float format are the identity over the extended reals.
-/
import proofs.«413386_j20117626814651_3_alg».proof.Proof.Gen.KernelIdeal.Value
import proofs.«413386_j20117626814651_3_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostW

open Cert.KernelIdeal Cert.KernelIdeal.Gen Idealize.ShloMosaic Idealize.ShloMosaic.TcCoe Idealize.SL.Sem
open Idealize.ShloMosaic.StableHlo Idealize.ShloMosaic.ValueIdx Cert.Spec

/-- The sign vector as the host code computes it: `+1` where the neuron's index is below 1638, else `-1` (never evaluated:
    the reference computes the same term). -/
def sgn : S2048.Idx → EReal :=
  id (select (cmpi .slt (iotaInDim S2048 32 0) (broadcastInDim S2048 ![] bcast_S_S2048 (constantI S_ 32 1638#32)))
    (broadcastInDim S2048 ![] bcast_S_S2048 (constant (F := Ideal) S_ .f32 0x3F800000#32))
    (broadcastInDim S2048 ![] bcast_S_S2048 (constant (F := Ideal) S_ .f32 0xBF800000#32)))

/-- The diagonal bit: row index equals column index, as 32-bit words. -/
abbrev diag : S2048x2048.Idx → BitVec 1 := cmpi .eq (iotaInDim S2048x2048 32 0) (iotaInDim S2048x2048 32 1)

/-- The readout half of the weights. -/
def wfK (f : S2048x512.Idx → EReal) : S2048x512.Idx → EReal :=
  truncf (F := Ideal) .bf16 (mulf (φ := .f32) (broadcastInDim S2048x512 ![0, 1] bcast_S2048x1_S2048x512_0_1
    (broadcastInDim S2048x1 ![0] bcast_S2048_S2048x1_0 sgn)) (Host.absf (F := Ideal) (φ := .f32) f)) bitsLt_bf16_f32

/-- The recurrent half of the weights, the diagonal selected to zero. -/
def wrK (r : S2048x2048.Idx → EReal) : S2048x2048.Idx → EReal :=
  truncf (F := Ideal) .bf16 (mulf (φ := .f32) (broadcastInDim S2048x2048 ![0, 1] bcast_S2048x1_S2048x2048_0_1
    (broadcastInDim S2048x1 ![0] bcast_S2048_S2048x1_0 sgn))
    (select diag (broadcastInDim S2048x2048 ![] bcast_S_S2048x2048 (id (constant (F := Ideal) S_ .f32 0x00000000#32)))
      (Host.absf (F := Ideal) (φ := .f32) r))) bitsLt_bf16_f32

/-- The two halves side by side: columns 0 to 511 the readout's, 512 to 2559 the recurrent's. -/
def wcat (f : S2048x512.Idx → EReal) (r : S2048x2048.Idx → EReal) : S2048x2560.Idx → EReal :=
  concatenate S2048x2560 1 [⟨S2048x512, wfK f⟩, ⟨S2048x2048, wrK r⟩] concatenates_S2048x512_S2048x2048_S2048x2560_d1

variable (m : (ℓ : Loc nD τ sig) → Buf (Elt Ideal) ℓ)

set_option maxHeartbeats 4000000 in
set_option maxRecDepth 8192 in
/-- The weight window's array at the launch is the concatenation of the two halves of the argument weights. -/
theorem weights_eq (c : Dev nD) :
    (V m c main_call0_v19 : S2048x2560.Idx → EReal)
      = wcat (m ((c : Thread nD τ).loc main_arg3)) (m ((c : Thread nD τ).loc main_arg2)) := by
  dsimp only [Gen.V, Gen.hostOps0]
  after_results
  rfl

/-- The bias window's array at the launch is the bias vector laid out as one row. -/
theorem bias_eq (c : Dev nD) :
    (V m c main_call0_v20 : S1x2048.Idx → EReal)
      = shapeCast S1x2048 (m ((c : Thread nD τ).loc main_arg4)) shapeCasts_S2048_S1x2048 := by
  dsimp only [Gen.V, Gen.hostOps0]
  after_results
  rfl

/-- The bias row at column `q` is the bias of neuron `q`. -/
theorem bias_apply (b : S2048.Idx → EReal) (q : Fin 2048) :
    shapeCast S1x2048 b shapeCasts_S2048_S1x2048 (ix2 (0 : Fin 1) q) = b (ix1 q) :=
  shapeCast_apply b shapeCasts_S2048_S1x2048 (ix2 (0 : Fin 1) q) (ix1 q) (by
    rw [Shape.rowMajor_val_one, Shape.rowMajor_val_two]
    show q.val = 0 * 2048 + q.val
    omega)

/-- The sign vector broadcast along the columns reads the row's sign. -/
theorem sgn_cols_f (k : Fin 2048) (q : Fin 512) :
    broadcastInDim S2048x512 ![0, 1] bcast_S2048x1_S2048x512_0_1 (broadcastInDim S2048x1 ![0] bcast_S2048_S2048x1_0 sgn) (ix2 k q)
      = sgn (ix1 k) := by
  refine (broadcastInDim_apply _ bcast_S2048x1_S2048x512_0_1 _ (ix2 k q) (ix2 k (0 : Fin 1)) (fun a => match a with
    | ⟨0, _⟩ => by show k.val = if (2048 : Nat) = 1 then 0 else k.val; rw [if_neg (by decide)]
    | ⟨1, _⟩ => by show 0 = if (1 : Nat) = 1 then 0 else q.val; rw [if_pos rfl])).trans ?_
  exact broadcastInDim_apply _ bcast_S2048_S2048x1_0 sgn (ix2 k (0 : Fin 1)) (ix1 k) (fun a => match a with
    | ⟨0, _⟩ => by show k.val = if (2048 : Nat) = 1 then 0 else k.val; rw [if_neg (by decide)])

theorem sgn_cols_r (k : Fin 2048) (q : Fin 2048) :
    broadcastInDim S2048x2048 ![0, 1] bcast_S2048x1_S2048x2048_0_1 (broadcastInDim S2048x1 ![0] bcast_S2048_S2048x1_0 sgn) (ix2 k q)
      = sgn (ix1 k) := by
  refine (broadcastInDim_apply _ bcast_S2048x1_S2048x2048_0_1 _ (ix2 k q) (ix2 k (0 : Fin 1)) (fun a => match a with
    | ⟨0, _⟩ => by show k.val = if (2048 : Nat) = 1 then 0 else k.val; rw [if_neg (by decide)]
    | ⟨1, _⟩ => by show 0 = if (1 : Nat) = 1 then 0 else q.val; rw [if_pos rfl])).trans ?_
  exact broadcastInDim_apply _ bcast_S2048_S2048x1_0 sgn (ix2 k (0 : Fin 1)) (ix1 k) (fun a => match a with
    | ⟨0, _⟩ => by show k.val = if (2048 : Nat) = 1 then 0 else k.val; rw [if_neg (by decide)])

/-- The readout half at an element: `σ[k] · |f[k, q]|`. -/
theorem wfK_apply (f : S2048x512.Idx → EReal) (k : Fin 2048) (q : Fin 512) :
    wfK f (ix2 k q) = wf sgn f (ix2 k q) := by
  show broadcastInDim S2048x512 ![0, 1] bcast_S2048x1_S2048x512_0_1 (broadcastInDim S2048x1 ![0] bcast_S2048_S2048x1_0 sgn) (ix2 k q)
      * max (f (ix2 k q)) (-(f (ix2 k q))) = sgn (ix1 k) * max (f (ix2 k q)) (-(f (ix2 k q)))
  rw [sgn_cols_f]

/-- The recurrent half at an element: `σ[k] · (0 if k = q else |r[k, q]|)`. -/
theorem wrK_apply (r : S2048x2048.Idx → EReal) (k : Fin 2048) (q : Fin 2048) :
    wrK r (ix2 k q) = wr sgn diag r (ix2 k q) := by
  have ez : broadcastInDim S2048x2048 ![] bcast_S_S2048x2048 (id (constant (F := Ideal) S_ .f32 0x00000000#32)) (ix2 k q) = (0 : EReal) := by
    refine (broadcastInDim_apply _ bcast_S_S2048x2048 _ (ix2 k q) ix0 (fun a => a.elim0)).trans ?_
    exact Ideal.ofBits_zero_f32
  show broadcastInDim S2048x2048 ![0, 1] bcast_S2048x1_S2048x2048_0_1 (broadcastInDim S2048x1 ![0] bcast_S2048_S2048x1_0 sgn) (ix2 k q)
      * Scalar.select (diag (ix2 k q))
          (broadcastInDim S2048x2048 ![] bcast_S_S2048x2048 (id (constant (F := Ideal) S_ .f32 0x00000000#32)) (ix2 k q))
          (max (r (ix2 k q)) (-(r (ix2 k q))))
    = sgn (ix1 k) * Scalar.select (diag (ix2 k q)) (0 : EReal) (max (r (ix2 k q)) (-(r (ix2 k q))))
  rw [sgn_cols_r, ez]

/-- A column below 512 of the concatenation is the readout half's. -/
theorem wcat_left (f : S2048x512.Idx → EReal) (r : S2048x2048.Idx → EReal) (k : Fin 2048) (q : Fin 512) :
    wcat f r (ix2 k (⟨q.val, by omega⟩ : Fin 2560)) = wf sgn f (ix2 k q) := by
  rw [← wfK_apply]
  exact concatenate_pair_apply_left (1 : Fin 2) (wfK f) (wrK r) concatenates_S2048x512_S2048x2048_S2048x2560_d1
    (ix2 k (⟨q.val, by omega⟩ : Fin 2560)) rfl (ix2 k q) (fun b => match b with
      | ⟨0, _⟩ => rfl
      | ⟨1, _⟩ => rfl)

/-- A column from 512 on is the recurrent half's, 512 columns to the left. -/
theorem wcat_right (f : S2048x512.Idx → EReal) (r : S2048x2048.Idx → EReal) (k : Fin 2048) (q : Fin 2048) :
    wcat f r (ix2 k (⟨q.val + 512, by omega⟩ : Fin 2560)) = wr sgn diag r (ix2 k q) := by
  rw [← wrK_apply]
  exact concatenate_pair_apply_right (1 : Fin 2) (wfK f) (wrK r) concatenates_S2048x512_S2048x2048_S2048x2560_d1
    (ix2 k (⟨q.val + 512, by omega⟩ : Fin 2560)) rfl rfl (ix2 k q) (fun b hb => match b with
      | ⟨0, _⟩ => rfl
      | ⟨1, _⟩ => absurd rfl hb)
    rfl

end Cert.KernelIdeal.HostW

end
-- ==== Proof.Blocks.lean ====
/-
  From blocks to arrays. Grid point `t` of the sixteen handles batch rows `256 t … 256 t + 255`: it stages those rows of
  the input and of the state, the whole bias row and the whole weight matrix, and writes back those rows of the three
  results. So what point `t` writes back is block `t` of one whole-array function of the arguments — the rectified
  state `u`, the readout product `u · Wf`, the recurrent product `u · Wr` — and the sixteen blocks tile each result.
-/
import proofs.«413386_j20117626814651_3_alg».proof.Proof.Gen.KernelIdeal.Value
import proofs.«413386_j20117626814651_3_alg».proof.Proof.Spec
import proofs.«413386_j20117626814651_3_alg».proof.Proof.Body
import proofs.«413386_j20117626814651_3_alg».proof.Proof.HostW
import Idealize.ShloMosaic.Lib.ValueIdx
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the batch-tiled windows are at block `(t, 0)`, the resident ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 16 := lt_of_lt_of_eq t.isLt N_0

/-- Batch row `256 t + p`: row `p` of point `t`'s block. -/
def row (t : Fin cfg0.N) (p : Fin 256) : Fin 4096 := ⟨t.val * 256 + p.val, by have := t_lt t; omega⟩

/-- The argument arrays, at their literal types. -/
abbrev iArr (c : Dev nD) : S4096x2048.Idx → EReal := m ((c : Thread nD τ).loc main_arg0)
abbrev xArr (c : Dev nD) : S4096x2048.Idx → EReal := m ((c : Thread nD τ).loc main_arg1)
abbrev rArr (c : Dev nD) : S2048x2048.Idx → EReal := m ((c : Thread nD τ).loc main_arg2)
abbrev fArr (c : Dev nD) : S2048x512.Idx → EReal := m ((c : Thread nD τ).loc main_arg3)
abbrev bArr (c : Dev nD) : S2048.Idx → EReal := m ((c : Thread nD τ).loc main_arg4)

/-- The three results as whole-array functions of the arguments. -/
abbrev uArr (c : Dev nD) : S4096x2048.Idx → EReal := act (iArr m c) (xArr m c) (bArr m c)
abbrev foutArr (c : Dev nD) : S4096x512.Idx → EReal := outF (uArr m c) (wf HostW.sgn (fArr m c))
abbrev routArr (c : Dev nD) : S4096x2048.Idx → EReal := outR (uArr m c) (wr HostW.sgn HostW.diag (rArr m c))

/-! ## The staged blocks at an element -/

/-- The input block of point `t`. -/
theorem iblk_apply (c : Dev nD) (t : Fin cfg0.N) (p : Fin 256) (k : Fin 2048) :
    iblk m c 0 t (ix2 p k) = iArr m c (ix2 (row t p) k) := by
  obtain ⟨e00, e01, -⟩ := idx_facts t
  show V m c main_arg0 (((cfg0.win 0).blk t).view.emb (ix2 p k)) = _
  rw [V_main_arg0]
  show iArr m c (((cfg0.win 0).blk t).view.emb (ix2 p k)) = _
  congr 1; funext a; apply Fin.ext
  match a with
  | ⟨0, _⟩ => show win0_0.index t (0 : Fin 2) * 256 + 1 * p.val = t.val * 256 + p.val; omega
  | ⟨1, _⟩ => show win0_0.index t (1 : Fin 2) * 2048 + 1 * k.val = k.val; omega

/-- The state block of point `t`. -/
theorem xblk_apply (c : Dev nD) (t : Fin cfg0.N) (p : Fin 256) (k : Fin 2048) :
    iblk m c 1 t (ix2 p k) = xArr m c (ix2 (row t p) k) := by
  obtain ⟨-, -, e10, e11, -⟩ := idx_facts t
  show V m c main_arg1 (((cfg0.win 1).blk t).view.emb (ix2 p k)) = _
  rw [V_main_arg1]
  show xArr m c (((cfg0.win 1).blk t).view.emb (ix2 p k)) = _
  congr 1; funext a; apply Fin.ext
  match a with
  | ⟨0, _⟩ => show win0_1.index t (0 : Fin 2) * 256 + 1 * p.val = t.val * 256 + p.val; omega
  | ⟨1, _⟩ => show win0_1.index t (1 : Fin 2) * 2048 + 1 * k.val = k.val; omega

/-- The bias row, the same at every point. -/
theorem bblk_apply (c : Dev nD) (t : Fin cfg0.N) (k : Fin 2048) :
    iblk m c 2 t (ix2 (0 : Fin 1) k) = bArr m c (ix1 k) := by
  obtain ⟨-, -, -, -, e20, e21, -⟩ := idx_facts t
  show (V m c main_call0_v20 : S1x2048.Idx → EReal) (((cfg0.win 2).blk t).view.emb (ix2 (0 : Fin 1) k)) = _
  rw [HostW.bias_eq]
  refine Eq.trans ?_ (HostW.bias_apply (bArr m c) k)
  congr 1; funext a; apply Fin.ext
  match a with
  | ⟨0, _⟩ => show win0_2.index t (0 : Fin 2) * 1 + 1 * 0 = 0; omega
  | ⟨1, _⟩ => show win0_2.index t (1 : Fin 2) * 2048 + 1 * k.val = k.val; omega

/-- The weight matrix, the same at every point: its first 512 columns are the readout weights, -/
theorem wblk_left (c : Dev nD) (t : Fin cfg0.N) (k : Fin 2048) (q : Fin 512) :
    iblk m c 3 t (ix2 k (⟨q.val, by omega⟩ : Fin 2560)) = wf HostW.sgn (fArr m c) (ix2 k q) := by
  obtain ⟨-, -, -, -, -, -, e30, e31, -⟩ := idx_facts t
  show (V m c main_call0_v19 : S2048x2560.Idx → EReal) (((cfg0.win 3).blk t).view.emb (ix2 k (⟨q.val, by omega⟩ : Fin 2560))) = _
  rw [HostW.weights_eq]
  refine Eq.trans ?_ (HostW.wcat_left (fArr m c) (rArr m c) k q)
  congr 1; funext a; apply Fin.ext
  match a with
  | ⟨0, _⟩ => show win0_3.index t (0 : Fin 2) * 2048 + 1 * k.val = k.val; omega
  | ⟨1, _⟩ => show win0_3.index t (1 : Fin 2) * 2560 + 1 * q.val = q.val; omega

/-- and its remaining 2048 columns the recurrent weights. -/
theorem wblk_right (c : Dev nD) (t : Fin cfg0.N) (k : Fin 2048) (q : Fin 2048) :
    iblk m c 3 t (ix2 k (⟨q.val + 512, by omega⟩ : Fin 2560)) = wr HostW.sgn HostW.diag (rArr m c) (ix2 k q) := by
  obtain ⟨-, -, -, -, -, -, e30, e31, -⟩ := idx_facts t
  show (V m c main_call0_v19 : S2048x2560.Idx → EReal) (((cfg0.win 3).blk t).view.emb (ix2 k (⟨q.val + 512, by omega⟩ : Fin 2560))) = _
  rw [HostW.weights_eq]
  refine Eq.trans ?_ (HostW.wcat_right (fArr m c) (rArr m c) k q)
  congr 1; funext a; apply Fin.ext
  match a with
  | ⟨0, _⟩ => show win0_3.index t (0 : Fin 2) * 2048 + 1 * k.val = k.val; omega
  | ⟨1, _⟩ => show win0_3.index t (1 : Fin 2) * 2560 + 1 * (q.val + 512) = q.val + 512; omega

/-- The state the body computes at point `t` is rows `256 t …` of `u`. -/
theorem state_blk (c : Dev nD) (t : Fin cfg0.N) (p : Fin 256) (k : Fin 2048) :
    k0_pay1 (F := Ideal) (iblk m c 1 t) (iblk m c 0 t) (iblk m c 2 t) (ix2 p k) = uArr m c (ix2 (row t p) k) := by
  refine (Body.state_apply (iblk m c 1 t) (iblk m c 0 t) (iblk m c 2 t) p k).trans ?_
  rw [xblk_apply, iblk_apply, bblk_apply]
  rfl

/-! ## What each point writes back -/

/-- Point `t` writes back block `t` of the state `u`. -/
theorem flushed6_eq (c : Dev nD) (t : Fin cfg0.N) :
    (dats m 0 c).flushed 6 t = ((cfg0.win 6).blk t).view.read (Elt Ideal) (uArr m c) := by
  obtain ⟨-, -, -, -, -, -, -, -, -, -, -, -, e60, e61⟩ := idx_facts t
  rw [Value.flushed6]
  unfold out0_6
  rw [View.canon_unit_zero hz]
  simp only [View.ld_unit_zero (S := S256x2048) hz, View.ld_unit_zero (S := S1x2048) hz]
  funext j
  obtain ⟨p, q, rfl⟩ : ∃ (p : Fin 256) (q : Fin 2048), j = ix2 p q := ⟨j 0, j 1, eq_ix2 j⟩
  show k0_pay1 (F := Ideal) (iblk m c 1 t) (iblk m c 0 t) (iblk m c 2 t) (ix2 p q)
    = uArr m c (((cfg0.win 6).blk t).view.emb (ix2 p q))
  rw [state_blk]
  congr 1; funext a; apply Fin.ext
  match a with
  | ⟨0, _⟩ => show t.val * 256 + p.val = win0_6.index t (0 : Fin 2) * 256 + 1 * p.val; omega
  | ⟨1, _⟩ => show q.val = win0_6.index t (1 : Fin 2) * 2048 + 1 * q.val; omega

/-- Point `t` writes back block `t` of the readout product. -/
theorem flushed4_eq (c : Dev nD) (t : Fin cfg0.N) :
    (dats m 0 c).flushed 4 t = ((cfg0.win 4).blk t).view.read (Elt Ideal) (foutArr m c) := by
  obtain ⟨-, -, -, -, -, -, -, -, e40, e41, -⟩ := idx_facts t
  rw [Value.flushed4]
  unfold out0_4
  rw [View.canon_unit_zero hz]
  simp only [View.ld_unit_zero (S := S256x2048) hz, View.ld_unit_zero (S := S1x2048) hz, View.ld_unit_zero (S := S2048x2560) hz]
  funext j
  obtain ⟨p, q, rfl⟩ : ∃ (p : Fin 256) (q : Fin 512), j = ix2 p q := ⟨j 0, j 1, eq_ix2 j⟩
  show k0_pay3 (F := Ideal) (iblk m c 1 t) (iblk m c 0 t) (iblk m c 2 t) (iblk m c 3 t) (ix2 p q)
    = foutArr m c (((cfg0.win 4).blk t).view.emb (ix2 p q))
  refine (Body.readout_apply (iblk m c 1 t) (iblk m c 0 t) (iblk m c 2 t) (iblk m c 3 t) p q).trans ?_
  have ej : ((cfg0.win 4).blk t).view.emb (ix2 p q) = (ix2 (row t p) q : S4096x512.Idx) := by
    funext a; apply Fin.ext
    match a with
    | ⟨0, _⟩ => show win0_4.index t (0 : Fin 2) * 256 + 1 * p.val = t.val * 256 + p.val; omega
    | ⟨1, _⟩ => show win0_4.index t (1 : Fin 2) * 512 + 1 * q.val = q.val; omega
  rw [ej]
  show _ = ∑ k : Fin 2048, uArr m c (ix2 (row t p) k) * wf HostW.sgn (fArr m c) (ix2 k q)
  refine Finset.sum_congr rfl fun k _ => ?_
  rw [state_blk, wblk_left]

/-- Point `t` writes back block `t` of the recurrent product. -/
theorem flushed5_eq (c : Dev nD) (t : Fin cfg0.N) :
    (dats m 0 c).flushed 5 t = ((cfg0.win 5).blk t).view.read (Elt Ideal) (routArr m c) := by
  obtain ⟨-, -, -, -, -, -, -, -, -, -, e50, e51, -⟩ := idx_facts t
  rw [Value.flushed5]
  unfold out0_5
  rw [View.canon_unit_zero hz]
  simp only [View.ld_unit_zero (S := S256x2048) hz, View.ld_unit_zero (S := S1x2048) hz, View.ld_unit_zero (S := S2048x2560) hz]
  funext j
  obtain ⟨p, q, rfl⟩ : ∃ (p : Fin 256) (q : Fin 2048), j = ix2 p q := ⟨j 0, j 1, eq_ix2 j⟩
  show k0_pay4 (F := Ideal) (iblk m c 1 t) (iblk m c 0 t) (iblk m c 2 t) (iblk m c 3 t) (ix2 p q)
    = routArr m c (((cfg0.win 5).blk t).view.emb (ix2 p q))
  refine (Body.recur_apply (iblk m c 1 t) (iblk m c 0 t) (iblk m c 2 t) (iblk m c 3 t) p q).trans ?_
  have ej : ((cfg0.win 5).blk t).view.emb (ix2 p q) = (ix2 (row t p) q : S4096x2048.Idx) := by
    funext a; apply Fin.ext
    match a with
    | ⟨0, _⟩ => show win0_5.index t (0 : Fin 2) * 256 + 1 * p.val = t.val * 256 + p.val; omega
    | ⟨1, _⟩ => show win0_5.index t (1 : Fin 2) * 2048 + 1 * q.val = q.val; omega
  rw [ej]
  show _ = ∑ k : Fin 2048, uArr m c (ix2 (row t p) k) * wr HostW.sgn HostW.diag (rArr m c) (ix2 k q)
  refine Finset.sum_congr rfl fun k _ => ?_
  rw [state_blk, wblk_right]

/-! ## The sixteen blocks tile each result -/

/-- The point whose block holds batch row `r` is `r / 256`. -/
def pointOf (r : Fin 4096) : Fin cfg0.N := ⟨r.val / 256, by rw [show cfg0.N = 16 from N_0]; have := r.isLt; omega⟩

theorem mem_blk4 (t : Fin cfg0.N) (i : S4096x512.Idx) :
    i ∈ ((cfg0.win 4).blk t).view.set ↔ ∀ a : Fin 2, win0_4.index t a * S256x512.size a ≤ (i a).val ∧ (i a).val < win0_4.index t a * S256x512.size a + S256x512.size a := by
  show i ∈ ((View.whole main_v0_0).slice (win0_4.rect t)).set ↔ _
  rw [View.set_slice_whole, Rect.mem_set_unit]
  exact Iff.rfl

theorem mem_blk5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v0_1).slice (win0_5.rect t)).set ↔ _
  rw [View.set_slice_whole, Rect.mem_set_unit]
  exact Iff.rfl

theorem mem_blk6 (t : Fin cfg0.N) (i : S4096x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v0_2).slice (win0_6.rect t)).set ↔ _
  rw [View.set_slice_whole, Rect.mem_set_unit]
  exact Iff.rfl

theorem cover4 (i : S4096x512.Idx) : ∃ t : Fin cfg0.N, (cfg0.win 4).flush t = true ∧ i ∈ ((cfg0.win 4).blk t).view.set := by
  have hi0 : (i 0).val < 4096 := (i 0).isLt
  have hi1 : (i 1).val < 512 := (i 1).isLt
  obtain ⟨-, -, -, -, -, -, -, -, e40, e41, -⟩ := idx_facts (pointOf (i 0))
  have hv : (pointOf (i 0)).val = (i 0).val / 256 := rfl
  refine ⟨pointOf (i 0), flush0_4 _, ?_⟩
  rw [mem_blk4]
  intro a
  match a with
  | ⟨0, _⟩ => show win0_4.index (pointOf (i 0)) (0 : Fin 2) * 256 ≤ (i 0).val ∧ (i 0).val < win0_4.index (pointOf (i 0)) (0 : Fin 2) * 256 + 256; omega
  | ⟨1, _⟩ => show win0_4.index (pointOf (i 0)) (1 : Fin 2) * 512 ≤ (i 1).val ∧ (i 1).val < win0_4.index (pointOf (i 0)) (1 : Fin 2) * 512 + 512; omega

theorem cover5 (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨-, -, -, -, -, -, -, -, -, -, e50, e51, -⟩ := idx_facts (pointOf (i 0))
  have hv : (pointOf (i 0)).val = (i 0).val / 256 := rfl
  refine ⟨pointOf (i 0), flush0_5 _, ?_⟩
  rw [mem_blk5]
  intro a
  match a with
  | ⟨0, _⟩ => show win0_5.index (pointOf (i 0)) (0 : Fin 2) * 256 ≤ (i 0).val ∧ (i 0).val < win0_5.index (pointOf (i 0)) (0 : Fin 2) * 256 + 256; omega
  | ⟨1, _⟩ => show win0_5.index (pointOf (i 0)) (1 : Fin 2) * 2048 ≤ (i 1).val ∧ (i 1).val < win0_5.index (pointOf (i 0)) (1 : Fin 2) * 2048 + 2048; omega

theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨-, -, -, -, -, -, -, -, -, -, -, -, e60, e61⟩ := idx_facts (pointOf (i 0))
  have hv : (pointOf (i 0)).val = (i 0).val / 256 := rfl
  refine ⟨pointOf (i 0), flush0_6 _, ?_⟩
  rw [mem_blk6]
  intro a
  match a with
  | ⟨0, _⟩ => show win0_6.index (pointOf (i 0)) (0 : Fin 2) * 256 ≤ (i 0).val ∧ (i 0).val < win0_6.index (pointOf (i 0)) (0 : Fin 2) * 256 + 256; omega
  | ⟨1, _⟩ => show win0_6.index (pointOf (i 0)) (1 : Fin 2) * 2048 ≤ (i 1).val ∧ (i 1).val < win0_6.index (pointOf (i 0)) (1 : Fin 2) * 2048 + 2048; omega

/-! ## The arrays after the run, and the run -/

theorem final4 (c : Dev nD) : (dats m 0 c).arrAt 4 cfg0.N = foutArr m c :=
  (dats m 0 c).arrAt_eq_of_cover 4 (foutArr m c) (fun t _ => flushed4_eq m c t) cover4

theorem final5 (c : Dev nD) : (dats m 0 c).arrAt 5 cfg0.N = routArr m c :=
  (dats m 0 c).arrAt_eq_of_cover 5 (routArr m c) (fun t _ => flushed5_eq m c t) cover5

theorem final6 (c : Dev nD) : (dats m 0 c).arrAt 6 cfg0.N = uArr m c :=
  (dats m 0 c).arrAt_eq_of_cover 6 (uArr m c) (fun t _ => flushed6_eq m c t) cover6

/-- Every weakly fair execution of the kernel program ends with the three results at `u · Wf`, `u · Wr` and `u` of the
    arguments, and the arguments unchanged. -/
theorem run : θ_run defs (onTc (τ := τ) (main (F := Ideal))) ⟨m, fun _ => 0, ρ⟩ fun r => ∀ c : Dev nD,
      r.2.mem ((c : Thread nD τ).loc main_v0_0) = foutArr m c
      ∧ r.2.mem ((c : Thread nD τ).loc main_v0_1) = routArr m c
      ∧ r.2.mem ((c : Thread nD τ).loc main_v0_2) = uArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2.1.trans (final6 m c),
      (h c).2.2.2⟩)
    (Value.run_blocks m ρ)

end Cert.KernelIdeal.KValue

end
-- ==== Proof.lean ====
/-
  The certificate of the leaky-integrator layer: a Pallas kernel that, per tile of 256 batch rows, computes the
  rectified state `u = max (c₉ · x + c₁ · (i + b)) 0` and ONE matrix product of `u` with the concatenated weights
  `[σ · |f|  |  σ · (|r| off the diagonal, 0 on it)]`, storing its first 512 columns as the readout and the rest as the
  recurrent drive — against a jnp reference that forms the two weight matrices separately (the diagonal removed by
  multiplying `r` with `1 - I` before the absolute value) and takes two products.

  Over the extended reals both programs compute `u`, `u · Wf` and `u · Wr` with
  `Wf[k, j] = σ[k] · |f[k, j]|`, `Wr[k, j] = σ[k] · (0 if k = j else |r[k, j]|)`: a product with a concatenation,
  sliced, is the pair of products; a change of float format is the identity; and `|r · (1 - δ)| = (0 if δ else |r|)` for
  a bit `δ` holds at every extended real, so finiteness of the inputs is never used. The sign vector `σ` and the
  constants `c₉ = f32(0.9)`, `c₁ = f32(0.1)` are the same terms on both sides and are never evaluated.

  The modules: `Spec` (the functions above and the scalar law), `RefIsSpec` (the reference's stages are the
  specification), `Body` (the kernel body's arithmetic at an element), `HostW` (the weight and bias arrays the host
  code prepares, at an element), `Blocks` (each grid point writes a block of the specification; the blocks tile the
  results). The frames and the reference's run are the generated modules'. No operation of the kernel was rewritten in
  idealizing it: its idealization is its own text read over the extended reals, and `preserves` is `True`.
-/
import proofs.«413386_j20117626814651_3_alg».proof.Defs
import proofs.«413386_j20117626814651_3_alg».proof.Proof.Gen.Kernel
import proofs.«413386_j20117626814651_3_alg».proof.Proof.Gen.Kernel.Skeleton
import proofs.«413386_j20117626814651_3_alg».proof.Proof.Gen.Kernel.Launch
import proofs.«413386_j20117626814651_3_alg».proof.Proof.Gen.Kernel.Points
import proofs.«413386_j20117626814651_3_alg».proof.Proof.Gen.Kernel.Frame
import proofs.«413386_j20117626814651_3_alg».proof.Proof.Gen.KernelIdeal
import proofs.«413386_j20117626814651_3_alg».proof.Proof.Gen.KernelIdeal.Skeleton
import proofs.«413386_j20117626814651_3_alg».proof.Proof.Gen.KernelIdeal.Launch
import proofs.«413386_j20117626814651_3_alg».proof.Proof.Gen.KernelIdeal.Points
import proofs.«413386_j20117626814651_3_alg».proof.Proof.Gen.KernelIdeal.Frame
import proofs.«413386_j20117626814651_3_alg».proof.Proof.Gen.ReferenceIdeal
import proofs.«413386_j20117626814651_3_alg».proof.Proof.Gen.Pre_finite_inputs
import proofs.«413386_j20117626814651_3_alg».proof.Proof.Gen.KernelIdeal.Value
import proofs.«413386_j20117626814651_3_alg».proof.Proof.Gen.ReferenceIdeal.Run
import proofs.«413386_j20117626814651_3_alg».proof.Proof.Gen.ReferenceIdeal.Read
import proofs.«413386_j20117626814651_3_alg».proof.Proof.Spec
import proofs.«413386_j20117626814651_3_alg».proof.Proof.RefIsSpec
import proofs.«413386_j20117626814651_3_alg».proof.Proof.Blocks
import Idealize.ShloMosaic.Adequacy
import Idealize.ShloMosaic.Init

noncomputable section

namespace Cert.Proof

open Idealize.ShloMosaic Idealize.ShloMosaic.TcCoe Idealize.SL.Sem

/-- The sign vector is one term in both programs. -/
theorem sgn_eq : Cert.ReferenceIdeal.RefValue.sgn = Cert.KernelIdeal.HostW.sgn := rfl

/-- So is the diagonal bit. -/
theorem diag_eq : Cert.ReferenceIdeal.RefValue.diag = Cert.KernelIdeal.HostW.diag := rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments, the kernel's three results (block by block, then tiled) and the
    reference's three results (stage by stage) are the same three functions of the arguments. -/
theorem algebraic : Cert.algebraic_KernelIdeal_ReferenceIdeal := by
  intro m ρ m' ρ' _ hagree
  refine ⟨fun c => Cert.KernelIdeal.KValue.foutArr m c, fun c => Cert.KernelIdeal.KValue.routArr m c,
    fun c => Cert.KernelIdeal.KValue.uArr m c, Cert.KernelIdeal.KValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v31_eq, Cert.ReferenceIdeal.RefValue.outF_eq,
      (hagree c).1, (hagree c).2.1, (hagree c).2.2.2.1, (hagree c).2.2.2.2, sgn_eq]
  · rw [Cert.ReferenceIdeal.Read.val_main_v32_eq, Cert.ReferenceIdeal.RefValue.outR_eq,
      (hagree c).1, (hagree c).2.1, (hagree c).2.2.1, (hagree c).2.2.2.2, sgn_eq, diag_eq]
  · rw [Cert.ReferenceIdeal.Read.val_main_v21_eq, Cert.ReferenceIdeal.RefValue.state_eq,
      (hagree c).1, (hagree c).2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
